-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S16x4096 : Shape := ⟨2, ![16, 4096]⟩
abbrev S32x1 : Shape := ⟨2, ![32, 1]⟩
abbrev S32x16 : Shape := ⟨2, ![32, 16]⟩
abbrev S16x32 : Shape := ⟨2, ![16, 32]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S32x1 : S_.BroadcastsInDim S32x1 (![] : Fin 0 → Fin S32x1.rank)
  reducesTo_S32x1_S_d0_1 : S32x1.ReducesTo [0, 1] S_
  bcast_S_S32x16 : S_.BroadcastsInDim S32x16 (![] : Fin 0 → Fin S32x16.rank)
  reducesTo_S32x16_S_d0_1 : S32x16.ReducesTo [0, 1] S_
  bcast_S_S16x32 : S_.BroadcastsInDim S16x32 (![] : Fin 0 → Fin S16x32.rank)
  reducesTo_S16x32_S_d0_1 : S16x32.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S16x32 .f32) (main_arg5 : FVec F S4096x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S4x4096x4096 .f32) (main_arg1 : FVec F S16x4096 .f32) (main_arg2 : FVec F S32x1 .f32) (main_arg3 : FVec F S32x16 .f32) (main_arg4 : FVec F S16x32 .f32) (main_arg5 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_v13 main_v16
-- ==== Kernel.lean ====
abbrev S4x4096x4096 : Shape := ⟨3, ![4, 4096, 4096]⟩
abbrev S16x4096 : Shape := ⟨2, ![16, 4096]⟩
abbrev S32x1 : Shape := ⟨2, ![32, 1]⟩
abbrev S32x16 : Shape := ⟨2, ![32, 16]⟩
abbrev S16x32 : Shape := ⟨2, ![16, 32]⟩
abbrev S4096x16 : Shape := ⟨2, ![4096, 16]⟩
abbrev S1x256x4096 : Shape := ⟨3, ![1, 256, 4096]⟩
abbrev S256x4096 : Shape := ⟨2, ![256, 4096]⟩
abbrev S256x16 : Shape := ⟨2, ![256, 16]⟩
abbrev S256x32 : Shape := ⟨2, ![256, 32]⟩
abbrev S32 : Shape := ⟨1, ![32]⟩
abbrev S1x32 : Shape := ⟨2, ![1, 32]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S16x4096, .f32⟩
  | .hbm, ⟨2, _⟩ => ⟨S32x1, .f32⟩
  | .hbm, ⟨3, _⟩ => ⟨S32x16, .f32⟩
  | .hbm, ⟨4, _⟩ => ⟨S16x32, .f32⟩
  | .hbm, ⟨5, _⟩ => ⟨S4096x16, .f32⟩
  | .hbm, ⟨6, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S16x4096, .f32⟩
  | .local _ .vmem, ⟨3, _⟩ => ⟨S32x1, .f32⟩
  | .local _ .vmem, ⟨4, _⟩ => ⟨S32x16, .f32⟩
  | .local _ .vmem, ⟨5, _⟩ => ⟨S16x32, .f32⟩
  | .local _ .vmem, ⟨6, _⟩ => ⟨S4096x16, .f32⟩
  | .local _ .vmem, ⟨7, _⟩ => ⟨S1x256x4096, .f32⟩
  | .local _ .vmem, ⟨8, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S32x16_S32x16_0_0 : ∀ a, (![0, 0] : Fin 2 → Nat) a + S32x16.size a ≤ S32x16.size a
  h_S32x16 : 0 < S32x16.numel
  inb_S32x1_S32x1_0_0 : ∀ a, (![0, 0] : Fin 2 → Nat) a + S32x1.size a ≤ S32x1.size a
  h_S32x1 : 0 < S32x1.numel
  shapeCasts_S32x1_S32 : S32x1.ShapeCasts S32
  shapeCasts_S32_S1x32 : S32.ShapeCasts S1x32
  broadcasts_S1x32_S256x32 : S1x32.Broadcasts S256x32
  inb_S16x32_S16x32_0_0 : ∀ a, (![0, 0] : Fin 2 → Nat) a + S16x32.size a ≤ S16x32.size a
  h_S16x32 : 0 < S16x32.numel
  inb_S4096x16_S4096x16_0_0 : ∀ a, (![0, 0] : Fin 2 → Nat) a + S4096x16.size a ≤ S4096x16.size a
  h_S4096x16 : 0 < S4096x16.numel
  shapeCasts_S256x4096_S1x256x4096 : S256x4096.ShapeCasts S1x256x4096
  dot_S256x4096_S16x4096_S256x16_1_1_0_0_n_n_wf : DotDims.WF S256x4096 S16x4096 S256x16 [1] [1] [0] [0] [] []
  dot_S256x16_S32x16_S256x32_1_1_0_0_n_n_wf : DotDims.WF S256x16 S32x16 S256x32 [1] [1] [0] [0] [] []
  dot_S256x32_S16x32_S256x16_1_1_0_0_n_n_wf : DotDims.WF S256x32 S16x32 S256x16 [1] [1] [0] [0] [] []
  dot_S256x16_S4096x16_S256x4096_1_1_0_0_n_n_wf : DotDims.WF S256x16 S4096x16 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S4096x16.size a
  hwx0_5 : ∀ i : grid0.Coords, EltTy.bits .f32 = 32 ∨ (Rect.block (s := S4096x16) S4096x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x4096.size a ≤ S4x4096x4096.size a
  hwx0_6 : ∀ i : grid0.Coords, EltTy.bits .f32 = 32 ∨ (Rect.block (s := S4x4096x4096) S1x256x4096.size (cc0_transform_6 i) (hinb0_6 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S32x16_S256x32_1_1_0_0_n_n : DotDims S256x16 S32x16 S256x32 where
  lhsContracting := [1]
  rhsContracting := [1]
  lhsNonContracting := [0]
  rhsNonContracting := [0]
  lhsBatch := []
  rhsBatch := []
  wf := dot_S256x16_S32x16_S256x32_1_1_0_0_n_n_wf
def dot_S256x32_S16x32_S256x16_1_1_0_0_n_n : DotDims S256x32 S16x32 S256x16 where
  lhsContracting := [1]
  rhsContracting := [1]
  lhsNonContracting := [0]
  rhsNonContracting := [0]
  lhsBatch := []
  rhsBatch := []
  wf := dot_S256x32_S16x32_S256x16_1_1_0_0_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S16x4096 : Shape := ⟨2, ![16, 4096]⟩
abbrev S32x1 : Shape := ⟨2, ![32, 1]⟩
abbrev S32x16 : Shape := ⟨2, ![32, 16]⟩
abbrev S16x32 : Shape := ⟨2, ![16, 32]⟩
abbrev S4096x16 : Shape := ⟨2, ![4096, 16]⟩
abbrev S32 : Shape := ⟨1, ![32]⟩
abbrev S4x4096x16 : Shape := ⟨3, ![4, 4096, 16]⟩
abbrev S4x4096x32 : Shape := ⟨3, ![4, 4096, 32]⟩
abbrev S1x1x32 : Shape := ⟨3, ![1, 1, 32]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16x4096, .f32⟩
  | .hbm, ⟨2, _⟩ => ⟨S32x1, .f32⟩
  | .hbm, ⟨3, _⟩ => ⟨S32x16, .f32⟩
  | .hbm, ⟨4, _⟩ => ⟨S16x32, .f32⟩
  | .hbm, ⟨5, _⟩ => ⟨S4096x16, .f32⟩
  | .hbm, ⟨6, _⟩ => ⟨S32, .f32⟩
  | .hbm, ⟨7, _⟩ => ⟨S4x4096x16, .f32⟩
  | .hbm, ⟨8, _⟩ => ⟨S4x4096x32, .f32⟩
  | .hbm, ⟨9, _⟩ => ⟨S1x1x32, .f32⟩
  | .hbm, ⟨10, _⟩ => ⟨S4x4096x32, .f32⟩
  | .hbm, ⟨11, _⟩ => ⟨S4x4096x32, .f32⟩
  | .hbm, ⟨12, _⟩ => ⟨S4x4096x16, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  shapeCasts_S32x1_S32 : S32x1.ShapeCasts S32
  bcast_S32_S1x1x32_2 : S32.BroadcastsInDim S1x1x32 (![2] : Fin 1 → Fin S1x1x32.rank)
  bcast_S1x1x32_S4x4096x32_0_1_2 : S1x1x32.BroadcastsInDim S4x4096x32 (![0, 1, 2] : Fin 3 → Fin S4x4096x32.rank)
  dot_S4x4096x4096_S16x4096_S4x4096x16_2_1_01_0_n_n_wf : DotDims.WF S4x4096x4096 S16x4096 S4x4096x16 [2] [1] [0, 1] [0] [] []
  dot_S4x4096x16_S32x16_S4x4096x32_2_1_01_0_n_n_wf : DotDims.WF S4x4096x16 S32x16 S4x4096x32 [2] [1] [0, 1] [0] [] []
  dot_S4x4096x32_S16x32_S4x4096x16_2_1_01_0_n_n_wf : DotDims.WF S4x4096x32 S16x32 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S32x16_S4x4096x32_2_1_01_0_n_n : DotDims S4x4096x16 S32x16 S4x4096x32 where
  lhsContracting := [2]
  rhsContracting := [1]
  lhsNonContracting := [0, 1]
  rhsNonContracting := [0]
  lhsBatch := []
  rhsBatch := []
  wf := dot_S4x4096x16_S32x16_S4x4096x32_2_1_01_0_n_n_wf
def dot_S4x4096x32_S16x32_S4x4096x16_2_1_01_0_n_n : DotDims S4x4096x32 S16x32 S4x4096x16 where
  lhsContracting := [2]
  rhsContracting := [1]
  lhsNonContracting := [0, 1]
  rhsNonContracting := [0]
  lhsBatch := []
  rhsBatch := []
  wf := dot_S4x4096x32_S16x32_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Spec.lean ====
/-
  The low-rank intervention as ONE function of the six argument arrays, index by index, on the extended reals.

  For a row x of `base` (4096 entries) the chain is
    t1[k'] = Σ_d' x[d'] · A[k',d']          (project the row down to 16 coordinates)
    t2[r]  = (Σ_k' t1[k'] · B[r,k']) · e[r]  (expand to 32 coordinates, then scale by the column e)
    t3[k]  = Σ_r t2[r] · aa[k,r]             (back to 16 coordinates)
    Δ[d]   = Σ_k t3[k] · bb[d,k]             (re-expand to 4096 coordinates)
  and the result at (b, s, d) is base[b,s,d] + Δ[d] for the row x = base[b,s,·]. Both programs compute exactly this
  nest of sums, in this order, so no law of the extended reals beyond reading each sum at an index is needed.
-/
import Idealize.ShloMosaic.PureOps.Ideal.Laws
import Idealize.ShloMosaic.Lib.ValueIdx

noncomputable section

open scoped BigOperators

namespace Cert.LowRank

open Idealize.ShloMosaic Idealize.ShloMosaic.ValueIdx

/-- The row projected down: entry k' is the row against row k' of A. -/
def down (x : Fin 4096 → EReal) (A : FVec Ideal ⟨2, ![16, 4096]⟩ .f32) (k' : Fin 16) : EReal :=
  ∑ d' : Fin 4096, x d' * A (ix2 k' d')

/-- Expanded to 32 coordinates against the rows of B, each scaled by the matching entry of the column e. -/
def scaled (x : Fin 4096 → EReal) (A : FVec Ideal ⟨2, ![16, 4096]⟩ .f32) (Bm : FVec Ideal ⟨2, ![32, 16]⟩ .f32)
    (e : FVec Ideal ⟨2, ![32, 1]⟩ .f32) (r : Fin 32) : EReal :=
  (∑ k' : Fin 16, down x A k' * Bm (ix2 r k')) * e (ix2 r (0 : Fin 1))

/-- Back to 16 coordinates against the rows of aa. -/
def mid (x : Fin 4096 → EReal) (A : FVec Ideal ⟨2, ![16, 4096]⟩ .f32) (Bm : FVec Ideal ⟨2, ![32, 16]⟩ .f32)
    (e : FVec Ideal ⟨2, ![32, 1]⟩ .f32) (aa : FVec Ideal ⟨2, ![16, 32]⟩ .f32) (k : Fin 16) : EReal :=
  ∑ r : Fin 32, scaled x A Bm e r * aa (ix2 k r)

/-- The row's update: entry d is the 16 middle coordinates against row d of bb. -/
def delta (x : Fin 4096 → EReal) (A : FVec Ideal ⟨2, ![16, 4096]⟩ .f32) (Bm : FVec Ideal ⟨2, ![32, 16]⟩ .f32)
    (e : FVec Ideal ⟨2, ![32, 1]⟩ .f32) (aa : FVec Ideal ⟨2, ![16, 32]⟩ .f32) (bb : FVec Ideal ⟨2, ![4096, 16]⟩ .f32)
    (d : Fin 4096) : EReal :=
  ∑ k : Fin 16, mid x A Bm e aa k * bb (ix2 d k)

/-- The whole result: every entry of `base` plus its row's update at that column. -/
def G (base : FVec Ideal ⟨3, ![4, 4096, 4096]⟩ .f32) (A : FVec Ideal ⟨2, ![16, 4096]⟩ .f32)
    (e : FVec Ideal ⟨2, ![32, 1]⟩ .f32) (Bm : FVec Ideal ⟨2, ![32, 16]⟩ .f32) (aa : FVec Ideal ⟨2, ![16, 32]⟩ .f32)
    (bb : FVec Ideal ⟨2, ![4096, 16]⟩ .f32) : FVec Ideal ⟨3, ![4, 4096, 4096]⟩ .f32 :=
  fun i => base i + delta (fun d' => base (ix3 (i 0) (i 1) d')) A Bm e aa bb (i 2)

/-- `G` at an index given by its coordinates. -/
theorem G_apply (base : FVec Ideal ⟨3, ![4, 4096, 4096]⟩ .f32) (A : FVec Ideal ⟨2, ![16, 4096]⟩ .f32)
    (e : FVec Ideal ⟨2, ![32, 1]⟩ .f32) (Bm : FVec Ideal ⟨2, ![32, 16]⟩ .f32) (aa : FVec Ideal ⟨2, ![16, 32]⟩ .f32)
    (bb : FVec Ideal ⟨2, ![4096, 16]⟩ .f32) (a : Fin 4) (s : Fin 4096) (d : Fin 4096) :
    G base A e Bm aa bb (ix3 a s d) = base (ix3 a s d) + delta (fun d' => base (ix3 a s d')) A Bm e aa bb d := rfl

end Cert.LowRank

end
-- ==== Proof.LibDotRows.lean ====
/-
  A matrix product against a stored [N, K] matrix, read at an index, on the extended reals.

  The dimension numbers contract the left operand's axis 1 with the right operand's axis 1 (no batch axis): an M×K
  matrix L against an N×K matrix W, the result M×N. Entry (p, q) of the product into a zero accumulator, and of the
  host's `dot_general` with the same numbers, is the sum over k of L[p,k] · W[q,k]: row p of L against row q of W.
  Generic in the three extents.
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The left operand's row coordinate is the result's row coordinate. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction's one coordinate. -/
theorem lhs1 (i : (⟨2, ![M, N]⟩ : Shape).Idx) (q : (DotDims.transposedRhs M K N).contr.Idx) :
    ((DotDims.transposedRhs M K N).lhsIdx i q 1).val
      = (q ⟨0, Nat.lt_of_lt_of_eq Nat.one_pos (Eq.symm (rfl : (DotDims.transposedRhs M K N).contr.rank = 1))⟩).val :=
  (DotDims.transposedRhs M K N).lhsIdx_val_of_single rfl i q

/-- The right operand's row coordinate is the result's column coordinate. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction's one coordinate. -/
theorem rhs1 (i : (⟨2, ![M, N]⟩ : Shape).Idx) (q : (DotDims.transposedRhs M K N).contr.Idx) :
    ((DotDims.transposedRhs M K N).rhsIdx i q 1).val
      = (q ⟨0, Nat.lt_of_lt_of_eq Nat.one_pos (Eq.symm (rfl : (DotDims.transposedRhs M K N).contr.rank = 1))⟩).val :=
  (DotDims.transposedRhs M K N).rhsIdx_val_of_single rfl i q

/-- The contraction's sum re-indexed by its one coordinate: row p of L against row q of W. -/
theorem sum_contr {φ₁ φ₂ : FTy} (L : FVec Ideal ⟨2, ![M, K]⟩ φ₁) (W : FVec Ideal ⟨2, ![N, K]⟩ φ₂) (p : Fin M) (q : Fin N) :
    (∑ k : (DotDims.transposedRhs M K N).contr.Idx,
        L ((DotDims.transposedRhs M K N).lhsIdx (ix2 p q) k) * W ((DotDims.transposedRhs M K N).rhsIdx (ix2 p q) k))
      = ∑ k : Fin K, L (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

/-- The vector unit's product into the zero accumulator, at (p, q). -/
theorem matmul_zero_apply {φ₁ φ₂ : FTy} (prec : Option ContractPrecision) (L : FVec Ideal ⟨2, ![M, K]⟩ φ₁)
    (W : FVec Ideal ⟨2, ![N, K]⟩ φ₂) (p : Fin M) (q : Fin N) :
    FloatOps.matmul (DotDims.transposedRhs M K N) prec L W (constant ⟨2, ![M, N]⟩ .f32 0x00000000#32) (ix2 p q)
      = ∑ k : Fin K, L (ix2 p k) * W (ix2 q k) := by
  rw [Ideal.matmul_constant_zero_apply]
  exact sum_contr L W p q

/-- The host's product with the same dimension numbers, at (p, q). -/
theorem dotGeneral_apply {φ₁ φ₂ : FTy} (prec : Option ContractPrecision) (sched : HostSchedule) (L : FVec Ideal ⟨2, ![M, K]⟩ φ₁)
    (W : FVec Ideal ⟨2, ![N, K]⟩ φ₂) (p : Fin M) (q : Fin N) :
    FloatOps.dotGeneral (DotDims.transposedRhs M K N) prec sched L W (ix2 p q) = ∑ k : Fin K, L (ix2 p k) * W (ix2 q k) := by
  rw [Ideal.dotGeneral_apply]
  exact sum_contr L W p q

end Cert.DotRows

end
-- ==== Proof.BodyIsSpec.lean ====
/-
  What the kernel body stores, read at an index, is the low-rank update of the block's row.

  The body loads a [1, 256, 4096] block x of `base` and the five small arrays whole, and stores
    x + (((x · Aᵀ) · Bᵀ) ∘ e) · aaᵀ) · bbᵀ
  where each product goes into a zero accumulator and contracts both operands' last axis: entry (p, q) is row p of the
  left operand against row q of the stored matrix. The changes of float format between the products are the identity
  on the extended reals. The column e is reshaped to a vector, then to one row, and broadcast down the 256 rows, which
  reads back as e[r, 0]. So the stored block at (0, p, d) is x[0,p,d] plus the update of the row x[0,p,·] at column d.
-/
import proofs.«110608_j30502857736485_1_alg».proof.Proof.Gen.KernelIdeal.Skeleton
import proofs.«110608_j30502857736485_1_alg».proof.Proof.Spec
import proofs.«110608_j30502857736485_1_alg».proof.Proof.LibDotRows
import Idealize.ShloMosaic.Lib.Pipeline.Value
import Idealize.ShloMosaic.Lib.ValueLayout

noncomputable section

open scoped BigOperators

namespace Cert.LowRank.Body

open Cert.KernelIdeal Cert.KernelIdeal.Gen Idealize.ShloMosaic Idealize.ShloMosaic.ValueIdx

/-- A column [a, 1] cast to a vector [a] reads, at i, the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- THE STORED BLOCK AT (u, p, d): the loaded block's entry plus its row's update at column d. -/
theorem pay_apply (v0 : Vec Ideal S1x256x4096 .f32) (v3 : Vec Ideal S16x4096 .f32) (v7 : Vec Ideal S32x16 .f32)
    (v10 : Vec Ideal S32x1 .f32) (v16 : Vec Ideal S16x32 .f32) (v20 : Vec Ideal S4096x16 .f32)
    (u : Fin 1) (p : Fin 256) (d : Fin 4096) :
    k0_pay1 (F := Ideal) v0 v3 v7 v10 v16 v20 (ix3 u p d)
      = v0 (ix3 (0 : Fin 1) p d) + delta (fun d' => v0 (ix3 (0 : Fin 1) p d')) v3 v7 v10 v16 v20 d := by
  unfold k0_pay1
  -- the last cast puts the unit axis back: the sum at (p, d)
  refine (shapeCast_ab_1ab_apply _ _ u p d).trans ?_
  refine congrArg₂ (fun a b : EReal => a + b) (shapeCast_1ab_ab_apply v0 _ p d) ?_
  -- the last product: the 16 middle coordinates of row p against row d of bb
  refine (Cert.DotRows.matmul_zero_apply none _ _ p d).trans ?_
  refine Finset.sum_congr rfl fun k _ => congrArg (· * v20 (ix2 d k)) ?_
  -- the third product: the 32 scaled coordinates against row k of aa
  refine (Cert.DotRows.matmul_zero_apply none _ _ p k).trans ?_
  refine Finset.sum_congr rfl fun r _ => congrArg (· * v16 (ix2 k r)) ?_
  refine congrArg₂ (fun a b : EReal => a * b) ?_ ?_
  · -- the second product over the first: the row projected down, against row r of B
    refine (Cert.DotRows.matmul_zero_apply none _ _ p r).trans ?_
    refine Finset.sum_congr rfl fun k' _ => congrArg (· * v7 (ix2 r k')) ?_
    refine (Cert.DotRows.matmul_zero_apply none _ _ p k').trans ?_
    exact Finset.sum_congr rfl fun d' _ => congrArg (· * v3 (ix2 k' d')) (shapeCast_1ab_ab_apply v0 _ p d')
  · -- the column e as one row broadcast down the 256 rows
    refine (broadcastTo_1b_ab_apply _ _ p r).trans ?_
    refine (shapeCast_a_1a_apply _ _ (0 : Fin 1) r).trans ?_
    exact shapeCast_a1_a_apply v10 _ r

end Cert.LowRank.Body

end
-- ==== Proof.BlocksToArray.lean ====
/-
  From what each grid point writes back to the whole result array.

  The grid is 4 × 16: point (b, s) stages the [1, 256, 4096] block of `base` at block index (b, s, 0), that is the rows
  256·s … 256·s + 255 of batch b, and the five small arrays whole (their one block, at index (0, 0)); it writes its
  result back to the block of the result array at the same index (b, s, 0). Entry (0, p, d) of the staged block is
  `base[b, 256·s + p, d]`, so its row p is row (b, 256·s + p) of `base`, and the stored block is the block of `G` at that
  point. The 64 blocks tile the result array: row r of batch b lies in the block of point (b, r / 256).
-/
import proofs.«110608_j30502857736485_1_alg».proof.Proof.Gen.KernelIdeal.Value
import proofs.«110608_j30502857736485_1_alg».proof.Proof.BodyIsSpec

set_option maxRecDepth 16384

noncomputable section

namespace Cert.LowRank.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## One point's stored block against the block of `G`, over plain arrays -/

/-- If row p of the loaded block is row (a, s) of `base`, the stored block at (u, p, d) is `G` at (a, s, d). -/
theorem stored_eq_G (X0 : Vec Ideal S4x4096x4096 .f32) (A : Vec Ideal S16x4096 .f32) (e : Vec Ideal S32x1 .f32)
    (Bm : Vec Ideal S32x16 .f32) (aa : Vec Ideal S16x32 .f32) (bb : Vec Ideal S4096x16 .f32)
    (x0 : Vec Ideal S1x256x4096 .f32) (a : Fin 4) (s : Fin 4096) (u : Fin 1) (p : Fin 256) (d : Fin 4096)
    (hrow : ∀ d' : Fin 4096, x0 (ix3 (0 : Fin 1) p d') = X0 (ix3 a s d')) :
    k0_pay1 (F := Ideal) x0 A Bm e aa bb (ix3 u p d) = G X0 A e Bm aa bb (ix3 a s d) := by
  rw [Body.pay_apply, G_apply, hrow d]
  exact congrArg (X0 (ix3 a s d) + ·) (congrArg (fun x => delta x A Bm e aa bb d) (funext hrow))

/-- The same with the small arrays' blocks and both indices general: the five small blocks are their arrays, the
    block's row (j 1) is row (E 0, E 1) of `base`, and the columns agree. -/
theorem point_eq_G (X0 : Vec Ideal S4x4096x4096 .f32) (A : Vec Ideal S16x4096 .f32) (e : Vec Ideal S32x1 .f32)
    (Bm : Vec Ideal S32x16 .f32) (aa : Vec Ideal S16x32 .f32) (bb : Vec Ideal S4096x16 .f32)
    (x0 : Vec Ideal S1x256x4096 .f32) (x1 : Vec Ideal S16x4096 .f32) (x2 : Vec Ideal S32x1 .f32)
    (x3 : Vec Ideal S32x16 .f32) (x4 : Vec Ideal S16x32 .f32) (x5 : Vec Ideal S4096x16 .f32)
    (h1 : x1 = A) (h2 : x2 = e) (h3 : x3 = Bm) (h4 : x4 = aa) (h5 : x5 = bb)
    (j : S1x256x4096.Idx) (E : S4x4096x4096.Idx)
    (hrow : ∀ d' : Fin 4096, x0 (ix3 (0 : Fin 1) (j 1) d') = X0 (ix3 (E 0) (E 1) d'))
    (hcol : (E 2).val = (j 2).val) :
    k0_pay1 (F := Ideal) x0 x1 x3 x2 x4 x5 j = G X0 A e Bm aa bb E := by
  subst h1 h2 h3 h4 h5
  obtain ⟨u, p, d, rfl⟩ : ∃ (u : Fin 1) (p : Fin 256) (d : Fin 4096), j = ix3 u p d := ⟨j 0, j 1, j 2, eq_ix3 j⟩
  obtain ⟨a, s, dd, rfl⟩ : ∃ (a : Fin 4) (s : Fin 4096) (dd : Fin 4096), E = ix3 a s dd := ⟨E 0, E 1, E 2, eq_ix3 E⟩
  obtain rfl : dd = d := Fin.ext hcol
  exact stored_eq_G X0 x1 x2 x3 x4 x5 x0 a s u p dd hrow

/-! ## The pipeline's blocks -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 64 grid points: the block of `base` moves with the result's block, along
    the first two axes only, and every small array's one block is at the origin. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every block index (b, s, 0) is some point's. -/
theorem idx_onto : ∀ (q0 : Fin 4) (q1 : Fin 16), ∃ t : Fin cfg0.N, win0_6.index t = ![q0.val, q1.val, 0] :=
  (by decide +kernel : ∀ (q0 : Fin 4) (q1 : Fin 16), ∃ t : Fin grid0.N, win0_6.index t = ![q0.val, q1.val, 0])

/-- The staged block of A is A. -/
theorem blk1_eq (c : Dev nD) (t : Fin cfg0.N) : (iblk m c 1 t : Vec Ideal S16x4096 .f32) = V m c main_arg1 := by
  obtain ⟨-, -, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 4096 + 1 * (y 1).val = (y 1).val; omega

/-- The staged block of e is e. -/
theorem blk2_eq (c : Dev nD) (t : Fin cfg0.N) : (iblk m c 2 t : Vec Ideal S32x1 .f32) = V m c main_arg2 := by
  obtain ⟨-, -, -, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 1 + 1 * (y 1).val = (y 1).val; omega

/-- The staged block of B is B. -/
theorem blk3_eq (c : Dev nD) (t : Fin cfg0.N) : (iblk m c 3 t : Vec Ideal S32x16 .f32) = V m c main_arg3 := by
  obtain ⟨-, -, -, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 16 + 1 * (y 1).val = (y 1).val; omega

/-- The staged block of aa is aa. -/
theorem blk4_eq (c : Dev nD) (t : Fin cfg0.N) : (iblk m c 4 t : Vec Ideal S16x32 .f32) = V m c main_arg4 := by
  obtain ⟨-, -, -, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 16 + 1 * (y 0).val = (y 0).val; omega
  | ⟨1, _⟩ => show win0_4.index t (1 : Fin 2) * 32 + 1 * (y 1).val = (y 1).val; omega

/-- The staged block of bb is bb. -/
theorem blk5_eq (c : Dev nD) (t : Fin cfg0.N) : (iblk m c 5 t : Vec Ideal S4096x16 .f32) = V m c main_arg5 := by
  obtain ⟨-, -, -, -, -, -, -, -, -, -, -, -, e0, e1⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 4096 + 1 * (y 0).val = (y 0).val; omega
  | ⟨1, _⟩ => show win0_5.index t (1 : Fin 2) * 16 + 1 * (y 1).val = (y 1).val; omega

/-- Row (j 1) of the staged block of `base` is the row of `base` that the result's block puts j on. -/
theorem blk0_row (c : Dev nD) (t : Fin cfg0.N) (j : S1x256x4096.Idx) (d' : Fin 4096) :
    (iblk m c 0 t : Vec Ideal S1x256x4096 .f32) (ix3 (0 : Fin 1) (j 1) d')
      = (V m c main_arg0 : Vec Ideal S4x4096x4096 .f32)
          (ix3 ((((cfg0.win 6).blk t).view.emb j : S4x4096x4096.Idx) 0) ((((cfg0.win 6).blk t).view.emb j : S4x4096x4096.Idx) 1) d') := by
  obtain ⟨e0, e1, e2, -⟩ := idx_facts t
  show V m c main_arg0 (((cfg0.win 0).blk t).view.emb (ix3 (0 : Fin 1) (j 1) d')) = _
  refine congrArg _ (funext fun a => Fin.ext ?_)
  have hj0 : (j 0).val < 1 := (j 0).isLt
  match a with
  | ⟨0, _⟩ => show win0_0.index t (0 : Fin 3) * 1 + 1 * 0 = win0_6.index t (0 : Fin 3) * 1 + 1 * (j 0).val; omega
  | ⟨1, _⟩ => show win0_0.index t (1 : Fin 3) * 256 + 1 * (j 1).val = win0_6.index t (1 : Fin 3) * 256 + 1 * (j 1).val; omega
  | ⟨2, _⟩ => show win0_0.index t (2 : Fin 3) * 4096 + 1 * d'.val = d'.val; omega

/-- The result's block keeps the column. -/
theorem blk6_col (t : Fin cfg0.N) (j : S1x256x4096.Idx) :
    ((((cfg0.win 6).blk t).view.emb j : S4x4096x4096.Idx) 2).val = (j 2).val := by
  obtain ⟨-, -, -, e3, -⟩ := idx_facts t
  show win0_6.index t (2 : Fin 3) * 4096 + 1 * (j 2).val = (j 2).val
  omega

/-- WHAT POINT t WRITES BACK is block t of `G` of the argument arrays. -/
theorem flushed_eq (c : Dev nD) (t : Fin cfg0.N) :
    (dats m 0 c).flushed 6 t = ((cfg0.win 6).blk t).view.read (Elt Ideal)
      (G (V m c main_arg0) (V m c main_arg1) (V m c main_arg2) (V m c main_arg3) (V m c main_arg4) (V m c main_arg5)) := by
  rw [Cert.KernelIdeal.Value.flushed6]
  unfold out0_6
  rw [View.canon_unit_zero hz3]
  simp only [View.ld_unit_zero (S := S1x256x4096) hz3, View.ld_unit_zero (S := S16x4096) hz2,
    View.ld_unit_zero (S := S32x1) hz2, View.ld_unit_zero (S := S32x16) hz2, View.ld_unit_zero (S := S16x32) hz2,
    View.ld_unit_zero (S := S4096x16) hz2]
  funext j
  exact point_eq_G _ _ _ _ _ _ _ _ _ _ _ _ (blk1_eq m c t) (blk2_eq m c t) (blk3_eq m c t) (blk4_eq m c t) (blk5_eq m c t)
    j _ (blk0_row m c t j) (blk6_col t j)

/-- An index of the result array is in point t's block iff each coordinate is in the block's range on its axis. -/
theorem mem_blk (t : Fin cfg0.N) (i : S4x4096x4096.Idx) :
    i ∈ ((cfg0.win 6).blk t).view.set ↔ ∀ a : Fin 3, win0_6.index t a * S1x256x4096.size a ≤ (i a).val
      ∧ (i a).val < win0_6.index t a * S1x256x4096.size a + S1x256x4096.size a := by
  show i ∈ ((View.whole main_v0).slice (win0_6.rect t)).set ↔ _
  rw [View.set_slice_whole, Rect.mem_set_unit]
  exact Iff.rfl

/-- The blocks tile the result array: (b, r, d) is in the block of the point with block index (b, r / 256, 0). -/
theorem cover (i : S4x4096x4096.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 4096 ≤ (i 2).val ∧ (i 2).val < win0_6.index t (2 : Fin 3) * 4096 + 4096; omega

/-- THE RESULT ARRAY after the run is `G` of the argument arrays. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover

/-- The kernel's run with the result array named: `G` of the arguments, which end unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.LowRank.Blocks

end
-- ==== Proof.RefIsSpec.lean ====
/-
  The reference's result, read one operation at a time, is the low-rank function `G` of the argument arrays.

  jnp's four einsums are `dot_general`s contracting the left operand's last axis with the right operand's last axis:
  at (b, s, ·) each is a sum over the contracted coordinate of row (b, s) of the left operand against a row of the
  stored matrix. The column `e` reaches the product through a reshape to a vector and two broadcasts, which read back
  as e[r, 0] at every (b, s, r). The nest of sums so obtained is `G` itself, term for term.
-/
import proofs.«110608_j30502857736485_1_alg».proof.Proof.Gen.ReferenceIdeal.Read
import proofs.«110608_j30502857736485_1_alg».proof.Proof.Spec

noncomputable section

open scoped BigOperators

namespace Cert.LowRank.Ref

open Cert.ReferenceIdeal Cert.ReferenceIdeal.Read Idealize.ShloMosaic Idealize.ShloMosaic.ValueIdx

/-! ## The operand indices of each product, by coordinates -/

theorem lidx1 (a : Fin 4) (s : Fin 4096) (k' : Fin 16) (d' : Fin 4096) : lidx_main_v1 (ix3 a s k') d' = ix3 a s d' :=
  funext fun c => by match c with | ⟨0, _⟩ => rfl | ⟨1, _⟩ => rfl | ⟨2, _⟩ => rfl
theorem ridx1 (a : Fin 4) (s : Fin 4096) (k' : Fin 16) (d' : Fin 4096) : ridx_main_v1 (ix3 a s k') d' = ix2 k' d' :=
  funext fun c => by match c with | ⟨0, _⟩ => rfl | ⟨1, _⟩ => rfl
theorem lidx2 (a : Fin 4) (s : Fin 4096) (r : Fin 32) (k' : Fin 16) : lidx_main_v2 (ix3 a s r) k' = ix3 a s k' :=
  funext fun c => by match c with | ⟨0, _⟩ => rfl | ⟨1, _⟩ => rfl | ⟨2, _⟩ => rfl
theorem ridx2 (a : Fin 4) (s : Fin 4096) (r : Fin 32) (k' : Fin 16) : ridx_main_v2 (ix3 a s r) k' = ix2 r k' :=
  funext fun c => by match c with | ⟨0, _⟩ => rfl | ⟨1, _⟩ => rfl
theorem lidx6 (a : Fin 4) (s : Fin 4096) (k : Fin 16) (r : Fin 32) : lidx_main_v6 (ix3 a s k) r = ix3 a s r :=
  funext fun c => by match c with | ⟨0, _⟩ => rfl | ⟨1, _⟩ => rfl | ⟨2, _⟩ => rfl
theorem ridx6 (a : Fin 4) (s : Fin 4096) (k : Fin 16) (r : Fin 32) : ridx_main_v6 (ix3 a s k) r = ix2 k r :=
  funext fun c => by match c with | ⟨0, _⟩ => rfl | ⟨1, _⟩ => rfl
theorem lidx7 (a : Fin 4) (s : Fin 4096) (d : Fin 4096) (k : Fin 16) : lidx_main_v7 (ix3 a s d) k = ix3 a s k :=
  funext fun c => by match c with | ⟨0, _⟩ => rfl | ⟨1, _⟩ => rfl | ⟨2, _⟩ => rfl
theorem ridx7 (a : Fin 4) (s : Fin 4096) (d : Fin 4096) (k : Fin 16) : ridx_main_v7 (ix3 a s d) k = ix2 d k :=
  funext fun c => by match c with | ⟨0, _⟩ => rfl | ⟨1, _⟩ => rfl

/-- The broadcast column at (a, s, r) reads the column's entry (r, 0): through both broadcasts and the reshape. -/
theorem idx_col (a : Fin 4) (s : Fin 4096) (r : Fin 32) :
    idx_main_v0 (idx_main_v3 (idx_main_v4 (ix3 a s r))) = ix2 r (0 : Fin 1) :=
  funext fun c => Fin.ext (by
    match c with
    | ⟨0, _⟩ => exact Nat.div_one _
    | ⟨1, _⟩ => rfl)

/-! ## The stages at an index -/

variable (x0 : FVec Ideal S4x4096x4096 .f32) (x1 : FVec Ideal S16x4096 .f32) (x2 : FVec Ideal S32x1 .f32)
  (x3 : FVec Ideal S32x16 .f32) (x4 : FVec Ideal S16x32 .f32) (x5 : FVec Ideal S4096x16 .f32)

/-- The first product at (a, s, k'): row (a, s) of `base` projected down. -/
theorem v1_at (a : Fin 4) (s : Fin 4096) (k' : Fin 16) :
    val_main_v1 (F := Ideal) x0 x1 (ix3 a s k') = down (fun d' => x0 (ix3 a s d')) x1 k' := by
  rw [val_main_v1_apply]
  exact Finset.sum_congr rfl fun d' _ => by rw [lidx1, ridx1]

/-- The second product times the broadcast column at (a, s, r). -/
theorem v5_at (a : Fin 4) (s : Fin 4096) (r : Fin 32) :
    val_main_v5 (F := Ideal) x0 x1 x2 x3 (ix3 a s r) = scaled (fun d' => x0 (ix3 a s d')) x1 x3 x2 r := by
  rw [val_main_v5_apply, val_main_v2_apply, val_main_v4_apply, val_main_v3_apply, val_main_v0_apply, idx_col]
  exact congrArg (· * x2 (ix2 r (0 : Fin 1))) (Finset.sum_congr rfl fun k' _ => by rw [lidx2, ridx2, v1_at])

/-- The third product at (a, s, k). -/
theorem v6_at (a : Fin 4) (s : Fin 4096) (k : Fin 16) :
    val_main_v6 (F := Ideal) x0 x1 x2 x3 x4 (ix3 a s k) = mid (fun d' => x0 (ix3 a s d')) x1 x3 x2 x4 k := by
  rw [val_main_v6_apply]
  exact Finset.sum_congr rfl fun r _ => by rw [lidx6, ridx6, v5_at]

/-- THE REFERENCE'S RESULT IS `G`. -/
theorem result_eq : val_main_v8 (F := Ideal) x0 x1 x2 x3 x4 x5 = G x0 x1 x2 x3 x4 x5 := by
  funext i
  obtain ⟨a, s, d, rfl⟩ : ∃ (a : Fin 4) (s : Fin 4096) (d : Fin 4096), i = ix3 a s d := ⟨i 0, i 1, i 2, eq_ix3 i⟩
  rw [val_main_v8_apply, val_main_v7_apply, G_apply]
  exact congrArg (x0 (ix3 a s d) + ·) (Finset.sum_congr rfl fun k _ => by rw [lidx7, ridx7, v6_at])

end Cert.LowRank.Ref

end
-- ==== Proof.lean ====
/-
  The low-rank intervention kernel against its jnp reference, on the extended reals.

  Both programs compute, for every row x = base[b, s, ·],
    out[b, s, d] = x[d] + Σ_k (Σ_r ((Σ_k' (Σ_d' x[d'] · A[k',d']) · B[r,k']) · e[r,0]) · aa[k,r]) · bb[d,k].
  The kernel does it block by block: a 4 × 16 grid of [1, 256, 4096] blocks of `base`, each pushed through four
  products into zero accumulators (with changes of float format between them, the identity on the extended reals) and
  added back to the block. The reference does it with four whole-array `dot_general`s. Every sum has the same index
  set and the same order of factors on the two sides, so the two results are the same function `G` of the arguments
  (Proof/Spec.lean) and no finiteness of the inputs is used:
    Proof/BodyIsSpec.lean     the stored block at an index is the update of the block's row;
    Proof/BlocksToArray.lean  the 64 written-back blocks are the blocks of `G`, and they tile the result array;
    Proof/RefIsSpec.lean      the reference's run, read one operation at a time, is `G`.
  The three frames are the generated ones (the reference's is its run with the result dropped); the idealization
  rewrote no operation, so there is nothing to preserve.
-/
import proofs.«110608_j30502857736485_1_alg».proof.Defs
import proofs.«110608_j30502857736485_1_alg».proof.Proof.Gen.Kernel
import proofs.«110608_j30502857736485_1_alg».proof.Proof.Gen.Kernel.Skeleton
import proofs.«110608_j30502857736485_1_alg».proof.Proof.Gen.Kernel.Launch
import proofs.«110608_j30502857736485_1_alg».proof.Proof.Gen.Kernel.Points
import proofs.«110608_j30502857736485_1_alg».proof.Proof.Gen.Kernel.Frame
import proofs.«110608_j30502857736485_1_alg».proof.Proof.Gen.KernelIdeal
import proofs.«110608_j30502857736485_1_alg».proof.Proof.Gen.KernelIdeal.Skeleton
import proofs.«110608_j30502857736485_1_alg».proof.Proof.Gen.KernelIdeal.Launch
import proofs.«110608_j30502857736485_1_alg».proof.Proof.Gen.KernelIdeal.Points
import proofs.«110608_j30502857736485_1_alg».proof.Proof.Gen.KernelIdeal.Frame
import proofs.«110608_j30502857736485_1_alg».proof.Proof.Gen.ReferenceIdeal
import proofs.«110608_j30502857736485_1_alg».proof.Proof.Gen.Pre_finite_inputs
import proofs.«110608_j30502857736485_1_alg».proof.Proof.Gen.KernelIdeal.Value
import proofs.«110608_j30502857736485_1_alg».proof.Proof.Gen.ReferenceIdeal.Run
import proofs.«110608_j30502857736485_1_alg».proof.Proof.Gen.ReferenceIdeal.Read
import proofs.«110608_j30502857736485_1_alg».proof.Proof.BlocksToArray
import proofs.«110608_j30502857736485_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments, the kernel's result array ends at `G` of them (the blocks tile it)
    and the reference's at its composed term, which is `G` of the same arrays. -/
theorem algebraic : Cert.algebraic_KernelIdeal_ReferenceIdeal := by
  intro m ρ m' ρ' _ hagree
  refine ⟨_, Cert.LowRank.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v8_eq, Cert.LowRank.Ref.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
